-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S8x8192x2048 : Shape := ⟨3, ![8, 8192, 2048]⟩
abbrev S8x4096x2048 : Shape := ⟨3, ![8, 4096, 2048]⟩
abbrev S8 : Shape := ⟨1, ![8]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S32768x2048 .f32) (main_arg1 : FVec F S8x8192x2048 .f32) (main_arg2 : FVec F S8x4096x2048 .f32) (main_arg3 : IVec S8 32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S8x8192x2048 .f32 := Host.absf main_arg1
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S32768x2048 : Shape := ⟨2, ![32768, 2048]⟩
abbrev S8x8192x2048 : Shape := ⟨3, ![8, 8192, 2048]⟩
abbrev S8x4096x2048 : Shape := ⟨3, ![8, 4096, 2048]⟩
abbrev S8 : Shape := ⟨1, ![8]⟩
abbrev S8x4096x4096 : Shape := ⟨3, ![8, 4096, 4096]⟩
abbrev S1x512x2048 : Shape := ⟨3, ![1, 512, 2048]⟩
abbrev S1x1024x2048 : Shape := ⟨3, ![1, 1024, 2048]⟩
abbrev S1x512x1024 : Shape := ⟨3, ![1, 512, 1024]⟩
abbrev S512x2048 : Shape := ⟨2, ![512, 2048]⟩
abbrev S1024x2048 : Shape := ⟨2, ![1024, 2048]⟩
abbrev S512x1024 : Shape := ⟨2, ![512, 1024]⟩
abbrev S1x512x4096 : Shape := ⟨3, ![1, 512, 4096]⟩
abbrev S1x4096x512 : Shape := ⟨3, ![1, 4096, 512]⟩
abbrev S1x512x512 : Shape := ⟨3, ![1, 512, 512]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 14
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S8x8192x2048, .f32⟩
  | .hbm, ⟨2, _⟩ => ⟨S8x4096x2048, .f32⟩
  | .hbm, ⟨3, _⟩ => ⟨S8, .i32⟩
  | .hbm, ⟨4, _⟩ => ⟨S8x4096x2048, .f32⟩
  | .hbm, ⟨5, _⟩ => ⟨S8x4096x2048, .f32⟩
  | .hbm, ⟨6, _⟩ => ⟨S8x4096x2048, .f32⟩
  | .hbm, ⟨7, _⟩ => ⟨S8x4096x2048, .bf16⟩
  | .hbm, ⟨8, _⟩ => ⟨S8x4096x2048, .bf16⟩
  | .hbm, ⟨9, _⟩ => ⟨S8x4096x2048, .bf16⟩
  | .hbm, ⟨10, _⟩ => ⟨S8x4096x2048, .bf16⟩
  | .hbm, ⟨11, _⟩ => ⟨S8x4096x4096, .bf16⟩
  | .hbm, ⟨12, _⟩ => ⟨S8x4096x2048, .f32⟩
  | .hbm, ⟨13, _⟩ => ⟨S32768x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x4096, .bf16⟩
  | .local _ .vmem, ⟨9, _⟩ => ⟨S1x512x4096, .bf16⟩
  | .local _ .vmem, ⟨10, _⟩ => ⟨S1x4096x512, .bf16⟩
  | .local _ .vmem, ⟨11, _⟩ => ⟨S1x4096x512, .bf16⟩
  | .local _ .vmem, ⟨12, _⟩ => ⟨S1x512x512, .f32⟩
  | .local _ .vmem, ⟨13, _⟩ => ⟨S1x512x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev grid1 : Pipeline.Grid := ⟨3, ![8, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  shapeCasts_S32768x2048_S8x4096x2048 : S32768x2048.ShapeCasts S8x4096x2048
  slices_S8x8192x2048_S8x4096x2048_0_0_0 : S8x8192x2048.Slices ![0, 0, 0] S8x4096x2048
  slices_S8x8192x2048_S8x4096x2048_0_4096_0 : S8x8192x2048.Slices ![0, 4096, 0] S8x4096x2048
  bitsLt_bf16_f32 : FTy.bits .bf16 < FTy.bits .f32
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S8x4096x2048_S32768x2048 : S8x4096x2048.ShapeCasts S32768x2048
  dot_S512x2048_S1024x2048_S512x1024_1_1_0_0_n_n_wf : DotDims.WF S512x2048 S1024x2048 S512x1024 [1] [1] [0] [0] [] []
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .bf16 = 32 ∨ (Rect.block (s := S8x4096x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x4096x2048.size a
  hwx0_1 : ∀ i : grid0.Coords, EltTy.bits .bf16 = 32 ∨ (Rect.block (s := S8x4096x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x4096x2048.size a
  hwx0_2 : ∀ i : grid0.Coords, EltTy.bits .bf16 = 32 ∨ (Rect.block (s := S8x4096x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x4096.size a
  hwx0_3 : ∀ i : grid0.Coords, EltTy.bits .bf16 = 32 ∨ (Rect.block (s := S8x4096x4096) S1x512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S8x4096x4096.size a
  hwx1_0 : ∀ i : grid1.Coords, EltTy.bits .bf16 = 32 ∨ (Rect.block (s := S8x4096x4096) S1x512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x512.size a ≤ S8x4096x2048.size a
  hwx1_1 : ∀ i : grid1.Coords, EltTy.bits .bf16 = 32 ∨ (Rect.block (s := S8x4096x2048) S1x4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S8x4096x2048.size a
  hwx1_2 : ∀ i : grid1.Coords, EltTy.bits .f32 = 32 ∨ (Rect.block (s := S8x4096x2048) S1x512x512.size (cc1_transform_2 i) (hinb1_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_v3) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x2048 : Shape := ⟨2, ![32768, 2048]⟩
abbrev S8x8192x2048 : Shape := ⟨3, ![8, 8192, 2048]⟩
abbrev S8x4096x2048 : Shape := ⟨3, ![8, 4096, 2048]⟩
abbrev S8 : Shape := ⟨1, ![8]⟩
abbrev S8x4096x8192 : Shape := ⟨3, ![8, 4096, 8192]⟩
abbrev S8x4096x4096 : Shape := ⟨3, ![8, 4096, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x8192x2048, .f32⟩
  | .hbm, ⟨2, _⟩ => ⟨S8x4096x2048, .f32⟩
  | .hbm, ⟨3, _⟩ => ⟨S8, .i32⟩
  | .hbm, ⟨4, _⟩ => ⟨S8x4096x2048, .f32⟩
  | .hbm, ⟨5, _⟩ => ⟨S8x4096x8192, .f32⟩
  | .hbm, ⟨6, _⟩ => ⟨S8x4096x4096, .f32⟩
  | .hbm, ⟨7, _⟩ => ⟨S8x4096x4096, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S8x4096x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S32768x2048_S8x4096x2048 : S32768x2048.ShapeCasts S8x4096x2048
  slices_S8x4096x8192_S8x4096x4096_0_0_0 : S8x4096x8192.Slices ![0, 0, 0] S8x4096x4096
  slices_S8x4096x8192_S8x4096x4096_0_0_4096 : S8x4096x8192.Slices ![0, 0, 4096] S8x4096x4096
  bcast_S_S8x4096x4096 : S_.BroadcastsInDim S8x4096x4096 (![] : Fin 0 → Fin S8x4096x4096.rank)
  shapeCasts_S8x4096x2048_S32768x2048 : S8x4096x2048.ShapeCasts S32768x2048
  dot_S8x4096x2048_S8x8192x2048_S8x4096x8192_2_2_1_1_0_0_wf : DotDims.WF S8x4096x2048 S8x8192x2048 S8x4096x8192 [2] [2] [1] [1] [0] [0]
  dot_S8x4096x4096_S8x4096x2048_S8x4096x2048_2_1_1_2_0_0_wf : DotDims.WF S8x4096x4096 S8x4096x2048 S8x4096x2048 [2] [1] [1] [2] [0] [0]

variable [Facts₀]

def dot_S8x4096x2048_S8x8192x2048_S8x4096x8192_2_2_1_1_0_0 : DotDims S8x4096x2048 S8x8192x2048 S8x4096x8192 where
  lhsContracting := [2]
  rhsContracting := [2]
  lhsNonContracting := [1]
  rhsNonContracting := [1]
  lhsBatch := [0]
  rhsBatch := [0]
  wf := dot_S8x4096x2048_S8x8192x2048_S8x4096x8192_2_2_1_1_0_0_wf
def dot_S8x4096x4096_S8x4096x2048_S8x4096x2048_2_1_1_2_0_0 : DotDims S8x4096x4096 S8x4096x2048 S8x4096x2048 where
  lhsContracting := [2]
  rhsContracting := [1]
  lhsNonContracting := [1]
  rhsNonContracting := [2]
  lhsBatch := [0]
  rhsBatch := [0]
  wf := dot_S8x4096x4096_S8x4096x2048_S8x4096x2048_2_1_1_2_0_0_wf

class Facts : Prop extends Facts₀ where

variable [Facts]
-- ==== Proof.Spec.lean ====
import Idealize.ShloMosaic.PureOps.Ideal
import Idealize.ShloMosaic.Lib.ValueIdx

/-!
  The routed-experts layer as whole-array functions on the extended reals.

  There are 8 experts with 4096 tokens each, model width 2048 and hidden width 4096. For expert `e`, token `t` and
  hidden unit `h`, with `x` the activations `[8, 4096, 2048]` and `wu`, `wg` the linear and gate weights
  `[8, 4096, 2048]`,
      up   = Σ_k x[e,t,k] · wu[e,h,k],    gate = Σ_k x[e,t,k] · wg[e,h,k],
      hidden[e,t,h] = up · (gate · σ(gate)),        σ(g) = 1 / (1 + exp (−g)),
  and with `wd` the down weights `[8, 4096, 2048]`,
      down[e,t,d] = Σ_h hidden[e,t,h] · wd[e,h,d].
  Each sum runs over its whole contracted axis in the natural order: no tiling enters these definitions.
-/

noncomputable section

namespace Cert.Moe

open Idealize.ShloMosaic Idealize.ShloMosaic.ValueIdx
open scoped BigOperators

/-- The gated unit at one entry: the linear branch `u` times the gate branch `g` passed through `g · σ(g)`. -/
def swiglu (u g : EReal) : EReal := u * (g * Ideal.logistic g)

/-- The hidden activations from the activations and the two weight arrays. -/
def hiddenAct (x wu wg : (⟨3, ![8, 4096, 2048]⟩ : Shape).Idx → EReal) : (⟨3, ![8, 4096, 4096]⟩ : Shape).Idx → EReal :=
  fun i => swiglu (∑ k : Fin 2048, x (ix3 (i 0) (i 1) k) * wu (ix3 (i 0) (i 2) k))
                  (∑ k : Fin 2048, x (ix3 (i 0) (i 1) k) * wg (ix3 (i 0) (i 2) k))

/-- The down projection of the hidden activations. -/
def downProj (h : (⟨3, ![8, 4096, 4096]⟩ : Shape).Idx → EReal) (wd : (⟨3, ![8, 4096, 2048]⟩ : Shape).Idx → EReal) :
    (⟨3, ![8, 4096, 2048]⟩ : Shape).Idx → EReal :=
  fun i => ∑ k : Fin 4096, h (ix3 (i 0) (i 1) k) * wd (ix3 (i 0) k (i 2))

end Cert.Moe

end
-- ==== Proof.LibRowRowMatmul.lean ====
/-
  A matrix product against a transposed right operand, read at an index, on the extended reals.

  For dimension numbers that contract axis 1 of BOTH operands, keep axis 0 of each as the result's two axes (the left
  operand's first) and have no batch axis — an `[M, K]` array times the transpose of an `[N, K]` array —, the product
  into a zero accumulator has at `(a, v)` the entry `Σ_k lhs[a, k] · rhs[v, k]`, the sum taken over the `K` contraction
  positions in their natural order. The library states the product's entry as a sum over the record's own contraction
  index set, with the operands read at the record's index maps; here those maps are evaluated axis by axis for such a
  record and the sum is re-indexed by the one contraction coordinate.
-/
import Idealize.ShloMosaic.PureOps.Ideal.Laws
import Idealize.ShloMosaic.Lib.ValueIdx

noncomputable section

namespace Cert.RowRowMatmul

open Idealize.ShloMosaic Idealize.ShloMosaic.ValueIdx
open scoped BigOperators

variable {M K N : ℕ} (d : DotDims ⟨2, ![M, K]⟩ ⟨2, ![N, K]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's row coordinate is the result's column coordinate: axis 0 is the right operand's only kept
    axis, and it comes after the left operand's one kept axis among the result's. -/
theorem rhs_row (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[v, k]`. -/
theorem matmul_zero_apply {φ₁ φ₂ : FTy} (hlb : d.lhsBatch = []) (hrb : d.rhsBatch = []) (hln : d.lhsNonContracting = [0])
    (hrn : d.rhsNonContracting = [0]) (hlc : d.lhsContracting = [1]) (hrc : d.rhsContracting = [1])
    (prec : Option ContractPrecision) (lhs : FVec Ideal ⟨2, ![M, K]⟩ φ₁) (rhs : FVec Ideal ⟨2, ![N, K]⟩ φ₂) (a : Fin M) (v : Fin N) :
    matmul d prec lhs rhs (constant ⟨2, ![M, N]⟩ .f32 0x00000000#32) (ix2 a v) = ∑ k : Fin K, lhs (ix2 a k) * rhs (ix2 v k) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 v k := by
    funext ax; apply Fin.ext
    match ax with
    | ⟨0, _⟩ => exact rhs_row d hlb hrb hln hrn _ _
    | ⟨1, _⟩ => exact (d.rhsIdx_val_of_single hrc _ _).trans (contrEquiv1_symm_val d K hr hs k)
  rw [e1, e2]

end Cert.RowRowMatmul

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.Payloads.lean ====
import proofs.«166344_j62380105007767_1_alg».proof.Proof.Gen.KernelIdeal.Skeleton
import proofs.«166344_j62380105007767_1_alg».proof.Proof.Spec
import proofs.«166344_j62380105007767_1_alg».proof.Proof.LibRowRowMatmul
import proofs.«166344_j62380105007767_1_alg».proof.Proof.LibPlainMatmul
import Idealize.ShloMosaic.Lib.ValueLayout
import Idealize.ShloMosaic.Lib.ValueIdx
import Idealize.ShloMosaic.PureOps.Ideal.Laws

/-!
  What each kernel body stores, read at one entry, on the extended reals.

  The first body holds a `[512, 2048]` tile of activations `x` and two `[1024, 2048]` tiles of weights, `wu` and `wg`.
  It forms the two products against the transposed weights, `up = x · wuᵀ` and `gate = x · wgᵀ`, and stores
  `up · (gate · σ(gate))`: at `(p, q)` that is `swiglu (Σ_k x[p,k] wu[q,k]) (Σ_k x[p,k] wg[q,k])`.
  The second body holds a `[512, 4096]` tile `h` and a `[4096, 512]` tile `w` and stores the plain product:
  at `(p, q)` the sum `Σ_k h[p,k] w[k,q]`. Narrowing a float to a shorter format is the identity here, and the
  leading unit axis of a tile is dropped on the way in and put back on the way out.
-/

noncomputable section

namespace Cert.KernelIdeal.Payloads

open Cert.KernelIdeal Cert.KernelIdeal.Gen Cert.Moe Idealize.ShloMosaic Idealize.ShloMosaic.ValueIdx
open scoped BigOperators

/-- The first body's stored tile at `(0, p, q)`: the gated unit of the two row-by-row products. -/
theorem upGate_apply (x0 : Vec Ideal S1x512x2048 .bf16) (x1 x2 : Vec Ideal S1x1024x2048 .bf16)
    (u : Fin 1) (p : Fin 512) (q : Fin 1024) :
    k0_pay1 (F := Ideal) x0 x1 x2 (ix3 u p q)
      = swiglu (∑ k : Fin 2048, x0 (ix3 (0 : Fin 1) p k) * x1 (ix3 (0 : Fin 1) q k))
               (∑ k : Fin 2048, x0 (ix3 (0 : Fin 1) p k) * x2 (ix3 (0 : Fin 1) q k)) := by
  unfold k0_pay1
  rw [shapeCast_ab_1ab_apply]
  have hup := Cert.RowRowMatmul.matmul_zero_apply (φ₁ := .bf16) (φ₂ := .bf16) dot_S512x2048_S1024x2048_S512x1024_1_1_0_0_n_n rfl rfl rfl rfl rfl rfl none
    (shapeCast S512x2048 x0 shapeCasts_S1x512x2048_S512x2048 : FVec Ideal S512x2048 .bf16)
    (shapeCast S1024x2048 x1 shapeCasts_S1x1024x2048_S1024x2048 : FVec Ideal S1024x2048 .bf16) p q
  have hgate := Cert.RowRowMatmul.matmul_zero_apply (φ₁ := .bf16) (φ₂ := .bf16) dot_S512x2048_S1024x2048_S512x1024_1_1_0_0_n_n rfl rfl rfl rfl rfl rfl none
    (shapeCast S512x2048 x0 shapeCasts_S1x512x2048_S512x2048 : FVec Ideal S512x2048 .bf16)
    (shapeCast S1024x2048 x2 shapeCasts_S1x1024x2048_S1024x2048 : FVec Ideal S1024x2048 .bf16) p q
  simp only [shapeCast_1ab_ab_apply] at hup hgate
  unfold swiglu
  rw [← hup, ← hgate]
  rfl

/-- The second body's stored tile at `(0, p, q)`: the plain product of the two tiles. -/
theorem down_apply (x0 : Vec Ideal S1x512x4096 .bf16) (x1 : Vec Ideal S1x4096x512 .bf16)
    (u : Fin 1) (p : Fin 512) (q : Fin 512) :
    k1_pay1 (F := Ideal) x0 x1 (ix3 u p q) = ∑ k : Fin 4096, x0 (ix3 (0 : Fin 1) p k) * x1 (ix3 (0 : Fin 1) k q) := by
  unfold k1_pay1
  rw [shapeCast_ab_1ab_apply]
  have h := Cert.PlainMatmul.matmul_zero_apply (φ₁ := .bf16) (φ₂ := .bf16) dot_S512x4096_S4096x512_S512x512_1_0_0_1_n_n rfl rfl rfl rfl rfl rfl none
    (shapeCast S512x4096 x0 shapeCasts_S1x512x4096_S512x4096 : FVec Ideal S512x4096 .bf16)
    (shapeCast S4096x512 x1 shapeCasts_S1x4096x512_S4096x512 : FVec Ideal S4096x512 .bf16) p q
  simp only [shapeCast_1ab_ab_apply] at h
  exact h

end Cert.KernelIdeal.Payloads

end
-- ==== Proof.HiddenArray.lean ====
import proofs.«166344_j62380105007767_1_alg».proof.Proof.Gen.KernelIdeal.Frame
import proofs.«166344_j62380105007767_1_alg».proof.Proof.Payloads
import Idealize.ShloMosaic.Lib.Pipeline.Value

/-!
  The first region's output array, whole.

  The region runs the gated-unit body on an `[8, 8, 4]` grid. Point `t` has expert `e = t / 32`, token tile
  `mi = t / 4 % 8` (512 tokens) and hidden tile `ni = t % 4` (1024 units). It reads tokens `512·mi … 512·mi + 511`
  of expert `e` from the activations and hidden rows `1024·ni … 1024·ni + 1023` of expert `e` from each weight array,
  all 2048 columns of each, and writes tile `(e, mi, ni)` of the output. Every entry of a written tile depends only
  on its own token's row and its own unit's two weight rows, so each tile is the restriction of ONE whole-array
  function, `Moe.hiddenAct`, and the tiles cover the `[8, 4096, 4096]` array: after the region it holds `Moe.hiddenAct` of
  the three arrays the region was entered with.
-/

set_option maxRecDepth 16384

noncomputable section

namespace Cert.KernelIdeal.HiddenArray

open Cert.KernelIdeal Cert.KernelIdeal.Gen Cert.KernelIdeal.Payloads Cert.Moe
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0, 0] : Fin 3 → Nat) = fun _ => 0 := funext fun a => by fin_cases a <;> rfl

/-- The four index maps at every grid point: expert, token tile and hidden tile as quotients and remainders of the
    point's position. -/
theorem index_facts : ∀ t : Fin cfg0.N,
    win0_3.index t (0 : Fin 3) = t.val / 32 ∧ win0_3.index t (1 : Fin 3) = t.val / 4 % 8 ∧ win0_3.index t (2 : Fin 3) = t.val % 4
    ∧ win0_0.index t (0 : Fin 3) = t.val / 32 ∧ win0_0.index t (1 : Fin 3) = t.val / 4 % 8 ∧ win0_0.index t (2 : Fin 3) = 0
    ∧ win0_1.index t (0 : Fin 3) = t.val / 32 ∧ win0_1.index t (1 : Fin 3) = t.val % 4 ∧ win0_1.index t (2 : Fin 3) = 0
    ∧ win0_2.index t (0 : Fin 3) = t.val / 32 ∧ win0_2.index t (1 : Fin 3) = t.val % 4 ∧ win0_2.index t (2 : Fin 3) = 0 :=
  (by decide +kernel : ∀ t : Fin grid0.N, _)

/-- The activations' block at point `t`, at `(0, p, k)`: token `512·mi + p` of expert `e`, column `k`. -/
theorem xblk_apply (c : Dev nD) (t : Fin cfg0.N) (p : Fin 512) (k : Fin 2048) (i : S8x4096x2048.Idx)
    (h0 : (i 0).val = t.val / 32) (h1 : (i 1).val = t.val / 4 % 8 * 512 + p.val) (h2 : (i 2).val = k.val) :
    (iblk0 V c 0 t : Vec Ideal S1x512x2048 .bf16) (ix3 (0 : Fin 1) p k) = (V c main_v3 : S8x4096x2048.Idx → Elt Ideal .bf16) i := by
  obtain ⟨-, -, -, e0, e1, e2, -⟩ := index_facts t
  unfold iblk0
  rw [View.read_apply]
  show V c main_v3 _ = V c main_v3 _
  congr 1
  funext a
  apply Fin.ext
  match a with
  | ⟨0, _⟩ => show win0_0.index t (0 : Fin 3) * 1 + 1 * (0 : Fin 1).val = (i 0).val; rw [e0, h0]; simp
  | ⟨1, _⟩ => show win0_0.index t (1 : Fin 3) * 512 + 1 * p.val = (i 1).val; rw [e1, h1]; omega
  | ⟨2, _⟩ => show win0_0.index t (2 : Fin 3) * 2048 + 1 * k.val = (i 2).val; rw [e2, h2]; omega

/-- The linear weights' block at point `t`, at `(0, q, k)`: hidden row `1024·ni + q` of expert `e`, column `k`. -/
theorem ublk_apply (c : Dev nD) (t : Fin cfg0.N) (q : Fin 1024) (k : Fin 2048) (i : S8x4096x2048.Idx)
    (h0 : (i 0).val = t.val / 32) (h1 : (i 1).val = t.val % 4 * 1024 + q.val) (h2 : (i 2).val = k.val) :
    (iblk0 V c 1 t : Vec Ideal S1x1024x2048 .bf16) (ix3 (0 : Fin 1) q k) = (V c main_v4 : S8x4096x2048.Idx → Elt Ideal .bf16) i := by
  obtain ⟨-, -, -, -, -, -, e0, e1, e2, -⟩ := index_facts t
  unfold iblk0
  rw [View.read_apply]
  show V c main_v4 _ = V c main_v4 _
  congr 1
  funext a
  apply Fin.ext
  match a with
  | ⟨0, _⟩ => show win0_1.index t (0 : Fin 3) * 1 + 1 * (0 : Fin 1).val = (i 0).val; rw [e0, h0]; simp
  | ⟨1, _⟩ => show win0_1.index t (1 : Fin 3) * 1024 + 1 * q.val = (i 1).val; rw [e1, h1]; omega
  | ⟨2, _⟩ => show win0_1.index t (2 : Fin 3) * 2048 + 1 * k.val = (i 2).val; rw [e2, h2]; omega

/-- The gate weights' block at point `t`, at `(0, q, k)`: the same rows of the other weight array. -/
theorem gblk_apply (c : Dev nD) (t : Fin cfg0.N) (q : Fin 1024) (k : Fin 2048) (i : S8x4096x2048.Idx)
    (h0 : (i 0).val = t.val / 32) (h1 : (i 1).val = t.val % 4 * 1024 + q.val) (h2 : (i 2).val = k.val) :
    (iblk0 V c 2 t : Vec Ideal S1x1024x2048 .bf16) (ix3 (0 : Fin 1) q k) = (V c main_v5 : S8x4096x2048.Idx → Elt Ideal .bf16) i := by
  obtain ⟨-, -, -, -, -, -, -, -, -, e0, e1, e2⟩ := index_facts t
  unfold iblk0
  rw [View.read_apply]
  show V c main_v5 _ = V c main_v5 _
  congr 1
  funext a
  apply Fin.ext
  match a with
  | ⟨0, _⟩ => show win0_2.index t (0 : Fin 3) * 1 + 1 * (0 : Fin 1).val = (i 0).val; rw [e0, h0]; simp
  | ⟨1, _⟩ => show win0_2.index t (1 : Fin 3) * 1024 + 1 * q.val = (i 1).val; rw [e1, h1]; omega
  | ⟨2, _⟩ => show win0_2.index t (2 : Fin 3) * 2048 + 1 * k.val = (i 2).val; rw [e2, h2]; omega

/-- The body's tile at point `t`, at `(u, p, q)`, is `Moe.hiddenAct` of the entry arrays at the array index `I` that tile
    entry lands on: expert `e`, token `512·mi + p`, unit `1024·ni + q`. -/
theorem tile_apply (c : Dev nD) (t : Fin cfg0.N) (u : Fin 1) (p : Fin 512) (q : Fin 1024) (I : S8x4096x4096.Idx)
    (h0 : (I 0).val = t.val / 32) (h1 : (I 1).val = t.val / 4 % 8 * 512 + p.val) (h2 : (I 2).val = t.val % 4 * 1024 + q.val) :
    k0_pay1 (F := Ideal) (iblk0 V c 0 t) (iblk0 V c 1 t) (iblk0 V c 2 t) (ix3 u p q)
      = hiddenAct (V c main_v3) (V c main_v4) (V c main_v5) I := by
  refine (upGate_apply (iblk0 V c 0 t) (iblk0 V c 1 t) (iblk0 V c 2 t) u p q).trans ?_
  unfold hiddenAct
  congr 1
  · refine Finset.sum_congr rfl fun k _ => ?_
    rw [xblk_apply V c t p k (ix3 (I 0) (I 1) k) h0 h1 rfl, ublk_apply V c t q k (ix3 (I 0) (I 2) k) h0 h2 rfl]
  · refine Finset.sum_congr rfl fun k _ => ?_
    rw [xblk_apply V c t p k (ix3 (I 0) (I 1) k) h0 h1 rfl, gblk_apply V c t q k (ix3 (I 0) (I 2) k) h0 h2 rfl]

/-- WHAT POINT `t` WRITES BACK is its block of `Moe.hiddenAct` of the arrays as the region finds them. -/
theorem flushed_eq (c : Dev nD) (t : Fin cfg0.N) :
    (dat0 V c).flushed 3 t = ((cfg0.win 3).blk t).view.read (Elt Ideal) (hiddenAct (V c main_v3) (V c main_v4) (V c main_v5)) := by
  show (cfg0.win 3).cut (grid0.coords t) ((dat0 V c).after 3 t) = _
  rw [after0_3]
  unfold out0_3
  rw [View.canon_unit_zero hz]
  simp only [View.ld_unit_zero (S := S1x512x2048) hz, View.ld_unit_zero (S := S1x1024x2048) hz]
  obtain ⟨e0, e1, e2, -⟩ := index_facts t
  funext j
  rw [View.read_apply]
  refine (congrArg (k0_pay1 (F := Ideal) (iblk0 V c 0 t) (iblk0 V c 1 t) (iblk0 V c 2 t)) (eq_ix3 (n0 := 1) (n1 := 512) (n2 := 1024) j)).trans ?_
  refine tile_apply V c t (j 0) (j 1) (j 2) _ ?_ ?_ ?_
  · show win0_3.index t (0 : Fin 3) * 1 + 1 * (j 0).val = _
    have : (j 0).val < 1 := (j 0).isLt
    rw [e0]; omega
  · show win0_3.index t (1 : Fin 3) * 512 + 1 * (j 1).val = _
    rw [e1]; omega
  · show win0_3.index t (2 : Fin 3) * 1024 + 1 * (j 2).val = _
    rw [e2]; omega

/-- An index of the array is in point `t`'s block iff each coordinate is in the block's range on its axis. -/
theorem mem_blk (t : Fin cfg0.N) (i : S8x4096x4096.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v7).slice (win0_3.rect t)).set ↔ _
  rw [View.set_slice_whole, Rect.mem_set_unit]
  exact Iff.rfl

/-- Every entry of the array lies in the tile of the point with its expert, its token's tile and its unit's tile. -/
theorem cover (i : S8x4096x4096.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 4096 := (i 2).isLt
  have hN : cfg0.N = 256 := N_0
  let t : Fin cfg0.N := ⟨((i 0).val * 8 + (i 1).val / 512) * 4 + (i 2).val / 1024, by rw [hN]; omega⟩
  have ht : t.val = ((i 0).val * 8 + (i 1).val / 512) * 4 + (i 2).val / 1024 := rfl
  obtain ⟨e0, e1, e2, -⟩ := index_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 512 ≤ (i 1).val ∧ (i 1).val < win0_3.index t (1 : Fin 3) * 512 + 512; rw [e1, ht]; omega
  | ⟨2, _⟩ => show win0_3.index t (2 : Fin 3) * 1024 ≤ (i 2).val ∧ (i 2).val < win0_3.index t (2 : Fin 3) * 1024 + 1024; rw [e2, ht]; omega

/-- THE ARRAY after the region: `Moe.hiddenAct` of the three arrays the region was entered with. -/
theorem final (c : Dev nD) :
    (dat0 V c).arrAt 3 cfg0.N = hiddenAct (V c main_v3) (V c main_v4) (V c main_v5) :=
  (dat0 V c).arrAt_eq_of_cover 3 (hiddenAct (V c main_v3) (V c main_v4) (V c main_v5)) (fun t _ => flushed_eq V c t) cover

end Cert.KernelIdeal.HiddenArray

end
-- ==== Proof.DownArray.lean ====
import proofs.«166344_j62380105007767_1_alg».proof.Proof.Gen.KernelIdeal.Frame
import proofs.«166344_j62380105007767_1_alg».proof.Proof.Payloads
import Idealize.ShloMosaic.Lib.Pipeline.Value

/-!
  The second region's output array, whole.

  The region runs the plain-product body on an `[8, 8, 4]` grid. Point `t` has expert `e = t / 32`, token tile
  `mi = t / 4 % 8` (512 tokens) and column tile `ni = t % 4` (512 model columns). It reads tokens
  `512·mi … 512·mi + 511` of expert `e` from the hidden activations, all 4096 units, and columns
  `512·ni … 512·ni + 511` of expert `e`'s down weights, all 4096 rows, and writes tile `(e, mi, ni)` of the output.
  Every entry of a written tile depends only on its own token's hidden row and its own column of the weights, so each
  tile is the restriction of ONE whole-array function, `Moe.downProj`, and the tiles cover the `[8, 4096, 2048]` array:
  after the region it holds `Moe.downProj` of the two arrays the region was entered with.
-/

set_option maxRecDepth 16384

noncomputable section

namespace Cert.KernelIdeal.DownArray

open Cert.KernelIdeal Cert.KernelIdeal.Gen Cert.KernelIdeal.Payloads Cert.Moe
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0, 0] : Fin 3 → Nat) = fun _ => 0 := funext fun a => by fin_cases a <;> rfl

/-- The three index maps at every grid point: expert, token tile and column tile as quotients and remainders of the
    point's position. -/
theorem index_facts : ∀ t : Fin cfg1.N,
    win1_2.index t (0 : Fin 3) = t.val / 32 ∧ win1_2.index t (1 : Fin 3) = t.val / 4 % 8 ∧ win1_2.index t (2 : Fin 3) = t.val % 4
    ∧ win1_0.index t (0 : Fin 3) = t.val / 32 ∧ win1_0.index t (1 : Fin 3) = t.val / 4 % 8 ∧ win1_0.index t (2 : Fin 3) = 0
    ∧ win1_1.index t (0 : Fin 3) = t.val / 32 ∧ win1_1.index t (1 : Fin 3) = 0 ∧ win1_1.index t (2 : Fin 3) = t.val % 4 :=
  (by decide +kernel : ∀ t : Fin grid1.N, _)

/-- The hidden activations' block at point `t`, at `(0, p, k)`: token `512·mi + p` of expert `e`, unit `k`. -/
theorem hblk_apply (c : Dev nD) (t : Fin cfg1.N) (p : Fin 512) (k : Fin 4096) (i : S8x4096x4096.Idx)
    (h0 : (i 0).val = t.val / 32) (h1 : (i 1).val = t.val / 4 % 8 * 512 + p.val) (h2 : (i 2).val = k.val) :
    (iblk1 V c 0 t : Vec Ideal S1x512x4096 .bf16) (ix3 (0 : Fin 1) p k) = (V c main_v7 : S8x4096x4096.Idx → Elt Ideal .bf16) i := by
  obtain ⟨-, -, -, e0, e1, e2, -⟩ := index_facts t
  unfold iblk1
  rw [View.read_apply]
  show V c main_v7 _ = V c main_v7 _
  congr 1
  funext a
  apply Fin.ext
  match a with
  | ⟨0, _⟩ => show win1_0.index t (0 : Fin 3) * 1 + 1 * (0 : Fin 1).val = (i 0).val; rw [e0, h0]; simp
  | ⟨1, _⟩ => show win1_0.index t (1 : Fin 3) * 512 + 1 * p.val = (i 1).val; rw [e1, h1]; omega
  | ⟨2, _⟩ => show win1_0.index t (2 : Fin 3) * 4096 + 1 * k.val = (i 2).val; rw [e2, h2]; omega

/-- The down weights' block at point `t`, at `(0, k, q)`: row `k` of expert `e`, column `512·ni + q`. -/
theorem wblk_apply (c : Dev nD) (t : Fin cfg1.N) (k : Fin 4096) (q : Fin 512) (i : S8x4096x2048.Idx)
    (h0 : (i 0).val = t.val / 32) (h1 : (i 1).val = k.val) (h2 : (i 2).val = t.val % 4 * 512 + q.val) :
    (iblk1 V c 1 t : Vec Ideal S1x4096x512 .bf16) (ix3 (0 : Fin 1) k q) = (V c main_v6 : S8x4096x2048.Idx → Elt Ideal .bf16) i := by
  obtain ⟨-, -, -, -, -, -, e0, e1, e2⟩ := index_facts t
  unfold iblk1
  rw [View.read_apply]
  show V c main_v6 _ = V c main_v6 _
  congr 1
  funext a
  apply Fin.ext
  match a with
  | ⟨0, _⟩ => show win1_1.index t (0 : Fin 3) * 1 + 1 * (0 : Fin 1).val = (i 0).val; rw [e0, h0]; simp
  | ⟨1, _⟩ => show win1_1.index t (1 : Fin 3) * 4096 + 1 * k.val = (i 1).val; rw [e1, h1]; omega
  | ⟨2, _⟩ => show win1_1.index t (2 : Fin 3) * 512 + 1 * q.val = (i 2).val; rw [e2, h2]; omega

/-- The body's tile at point `t`, at `(u, p, q)`, is `Moe.downProj` of the entry arrays at the array index `I` that tile
    entry lands on: expert `e`, token `512·mi + p`, column `512·ni + q`. -/
theorem tile_apply (c : Dev nD) (t : Fin cfg1.N) (u : Fin 1) (p : Fin 512) (q : Fin 512) (I : S8x4096x2048.Idx)
    (h0 : (I 0).val = t.val / 32) (h1 : (I 1).val = t.val / 4 % 8 * 512 + p.val) (h2 : (I 2).val = t.val % 4 * 512 + q.val) :
    k1_pay1 (F := Ideal) (iblk1 V c 0 t) (iblk1 V c 1 t) (ix3 u p q)
      = downProj (V c main_v7) (V c main_v6) I := by
  refine (down_apply (iblk1 V c 0 t) (iblk1 V c 1 t) u p q).trans ?_
  unfold downProj
  refine Finset.sum_congr rfl fun k _ => ?_
  rw [hblk_apply V c t p k (ix3 (I 0) (I 1) k) h0 h1 rfl, wblk_apply V c t k q (ix3 (I 0) k (I 2)) h0 rfl h2]

/-- WHAT POINT `t` WRITES BACK is its block of `Moe.downProj` of the arrays as the region finds them. -/
theorem flushed_eq (c : Dev nD) (t : Fin cfg1.N) :
    (dat1 V c).flushed 2 t = ((cfg1.win 2).blk t).view.read (Elt Ideal) (downProj (V c main_v7) (V c main_v6)) := by
  show (cfg1.win 2).cut (grid1.coords t) ((dat1 V c).after 2 t) = _
  rw [after1_2]
  unfold out1_2
  rw [View.canon_unit_zero hz]
  simp only [View.ld_unit_zero (S := S1x512x4096) hz, View.ld_unit_zero (S := S1x4096x512) hz]
  obtain ⟨e0, e1, e2, -⟩ := index_facts t
  funext j
  rw [View.read_apply]
  refine (congrArg (k1_pay1 (F := Ideal) (iblk1 V c 0 t) (iblk1 V c 1 t)) (eq_ix3 (n0 := 1) (n1 := 512) (n2 := 512) j)).trans ?_
  refine tile_apply V c t (j 0) (j 1) (j 2) _ ?_ ?_ ?_
  · show win1_2.index t (0 : Fin 3) * 1 + 1 * (j 0).val = _
    have : (j 0).val < 1 := (j 0).isLt
    rw [e0]; omega
  · show win1_2.index t (1 : Fin 3) * 512 + 1 * (j 1).val = _
    rw [e1]; omega
  · show win1_2.index t (2 : Fin 3) * 512 + 1 * (j 2).val = _
    rw [e2]; omega

/-- An index of the array is in point `t`'s block iff each coordinate is in the block's range on its axis. -/
theorem mem_blk (t : Fin cfg1.N) (i : S8x4096x2048.Idx) :
    i ∈ ((cfg1.win 2).blk t).view.set ↔ ∀ a : Fin 3, win1_2.index t a * S1x512x512.size a ≤ (i a).val ∧ (i a).val < win1_2.index t a * S1x512x512.size a + S1x512x512.size a := by
  show i ∈ ((View.whole main_v8).slice (win1_2.rect t)).set ↔ _
  rw [View.set_slice_whole, Rect.mem_set_unit]
  exact Iff.rfl

/-- Every entry of the array lies in the tile of the point with its expert, its token's tile and its column's tile. -/
theorem cover (i : S8x4096x2048.Idx) : ∃ t : Fin cfg1.N, (cfg1.win 2).flush t = true ∧ i ∈ ((cfg1.win 2).blk t).view.set := by
  have hi0 : (i 0).val < 8 := (i 0).isLt
  have hi1 : (i 1).val < 4096 := (i 1).isLt
  have hi2 : (i 2).val < 2048 := (i 2).isLt
  have hN : cfg1.N = 256 := N_1
  let t : Fin cfg1.N := ⟨((i 0).val * 8 + (i 1).val / 512) * 4 + (i 2).val / 512, by rw [hN]; omega⟩
  have ht : t.val = ((i 0).val * 8 + (i 1).val / 512) * 4 + (i 2).val / 512 := rfl
  obtain ⟨e0, e1, e2, -⟩ := index_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; rw [e0, ht]; omega
  | ⟨1, _⟩ => show win1_2.index t (1 : Fin 3) * 512 ≤ (i 1).val ∧ (i 1).val < win1_2.index t (1 : Fin 3) * 512 + 512; rw [e1, ht]; omega
  | ⟨2, _⟩ => show win1_2.index t (2 : Fin 3) * 512 ≤ (i 2).val ∧ (i 2).val < win1_2.index t (2 : Fin 3) * 512 + 512; rw [e2, ht]; omega

/-- THE ARRAY after the region: `Moe.downProj` of the two arrays the region was entered with. -/
theorem final (c : Dev nD) :
    (dat1 V c).arrAt 2 cfg1.N = downProj (V c main_v7) (V c main_v6) :=
  (dat1 V c).arrAt_eq_of_cover 2 (downProj (V c main_v7) (V c main_v6)) (fun t _ => flushed_eq V c t) cover

end Cert.KernelIdeal.DownArray

end
-- ==== Proof.KernelValue.lean ====
import proofs.«166344_j62380105007767_1_alg».proof.Proof.ResultRun
import proofs.«166344_j62380105007767_1_alg».proof.Proof.HiddenArray
import proofs.«166344_j62380105007767_1_alg».proof.Proof.DownArray
import Idealize.ShloMosaic.Lib.StableHlo.Run

/-!
  The idealized kernel program's result as one function of its arguments.

  Before the first region the host reshapes the activations `[32768, 2048]` to `[8, 4096, 2048]`, cuts the
  up/gate weights `[8, 8192, 2048]` along their second axis into rows `0 … 4095` (the linear weights) and rows
  `4096 … 8191` (the gate weights), and narrows these three and the down weights to the shorter float format.
  The first region leaves `Moe.hiddenAct` of the first three in its output array; the second region reads that
  array and the narrowed down weights and leaves `Moe.downProj` of them; the host reshapes that to `[32768, 2048]`.
  No region and no host line writes an array a later one reads except along this chain, so the contents at each
  boundary are read back one step at a time.
-/

set_option maxRecDepth 16384

noncomputable section

namespace Cert.KernelIdeal.KernelValue

open Cert.KernelIdeal Cert.KernelIdeal.Gen Cert.Moe
open Idealize.ShloMosaic Idealize.ShloMosaic.TcCoe Idealize.SL.Sem Idealize.ShloMosaic.StableHlo

variable (m : (ℓ : Loc nD τ sig) → Buf (Elt Ideal) ℓ) (ρ : Dev nD → PrngReg)

/-- Narrowing to the shorter float format, on an `[8, 4096, 2048]` array. -/
abbrev narrow : (⟨S8x4096x2048, .f32⟩ : BufTy).Contents (Elt Ideal) → (⟨S8x4096x2048, .bf16⟩ : BufTy).Contents (Elt Ideal) :=
  (truncf (F := Ideal) .bf16 · bitsLt_bf16_f32)

/-- The activations as the first region finds them: reshaped to experts × tokens × columns and narrowed. -/
abbrev xArr (c : Dev nD) : (⟨S8x4096x2048, .bf16⟩ : BufTy).Contents (Elt Ideal) :=
  narrow (shapeCast S8x4096x2048 (m ((c.tc : Thread nD τ).loc main_arg0)) shapeCasts_S32768x2048_S8x4096x2048)
/-- The linear weights: rows `0 … 4095` of each expert's up/gate weights, narrowed. -/
abbrev wuArr (c : Dev nD) : (⟨S8x4096x2048, .bf16⟩ : BufTy).Contents (Elt Ideal) :=
  narrow (extractStridedSlice S8x4096x2048 ![0, 0, 0] (m ((c.tc : Thread nD τ).loc main_arg1)) slices_S8x8192x2048_S8x4096x2048_0_0_0)
/-- The gate weights: rows `4096 … 8191`, narrowed. -/
abbrev wgArr (c : Dev nD) : (⟨S8x4096x2048, .bf16⟩ : BufTy).Contents (Elt Ideal) :=
  narrow (extractStridedSlice S8x4096x2048 ![0, 4096, 0] (m ((c.tc : Thread nD τ).loc main_arg1)) slices_S8x8192x2048_S8x4096x2048_0_4096_0)
/-- The down weights, narrowed. -/
abbrev wdArr (c : Dev nD) : (⟨S8x4096x2048, .bf16⟩ : BufTy).Contents (Elt Ideal) :=
  narrow (m ((c.tc : Thread nD τ).loc main_arg2))

theorem v3_eq (c : Dev nD) : V1 m ρ c main_v3 = xArr m c := by
  dsimp only [V1, W1, hostOps0]
  after_results <;> rfl
theorem v4_eq (c : Dev nD) : V1 m ρ c main_v4 = wuArr m c := by
  dsimp only [V1, W1, hostOps0]
  after_results <;> rfl
theorem v5_eq (c : Dev nD) : V1 m ρ c main_v5 = wgArr m c := by
  dsimp only [V1, W1, hostOps0]
  after_results <;> rfl
theorem v6_eq (c : Dev nD) : V1 m ρ c main_v6 = wdArr m c := by
  dsimp only [V1, W1, hostOps0]
  after_results <;> rfl

/-- The first region's output array at its exit. -/
theorem v7_eq (c : Dev nD) : V2 m ρ c main_v7 = hiddenAct (xArr m c) (wuArr m c) (wgArr m c) := by
  refine ((W2_arr m ρ c 3).trans (HiddenArray.final (V1 m ρ) c)).trans ?_
  rw [v3_eq, v4_eq, v5_eq]

/-- The second region does not find the down weights changed by the first. -/
theorem v6_kept (c : Dev nD) : V2 m ρ c main_v6 = wdArr m c :=
  (W2_of_ne m ρ c main_v6 (by decide)).trans (v6_eq m ρ c)

/-- The second region's output array at its exit. -/
theorem v8_eq (c : Dev nD) : V3 m ρ c main_v8 = downProj (hiddenAct (xArr m c) (wuArr m c) (wgArr m c)) (wdArr m c) := by
  refine ((W3_arr m ρ c 2).trans (DownArray.final (V2 m ρ) c)).trans ?_
  rw [v7_eq, v6_kept]

/-- THE RESULT array at the last boundary: the reshape of the down projection of the hidden activations. -/
theorem result_eq (c : Dev nD) :
    W4 m ρ c (Proc.devRef .tc main_v9)
      = shapeCast S32768x2048 (downProj (hiddenAct (xArr m c) (wuArr m c) (wgArr m c)) (wdArr m c)) shapeCasts_S8x4096x2048_S32768x2048 := by
  have h : W4 m ρ c (Proc.devRef .tc main_v9) = shapeCast S32768x2048 (V3 m ρ c main_v8) shapeCasts_S8x4096x2048_S32768x2048 := by
    dsimp only [W4, hostOps2]
    after_results <;> rfl
  rw [h, v8_eq]

/-- THE RUN, READ: @main terminates with its result at that function of the arguments and the arguments as launched. -/
theorem run : θ_run defs (onTc (τ := τ) (main (F := Ideal))) ⟨m, fun _ => 0, ρ⟩ (fun r => ∀ c : Dev nD,
      r.2.mem ((c.tc : Thread nD τ).loc main_v9)
        = shapeCast S32768x2048 (downProj (hiddenAct (xArr m c) (wuArr m c) (wgArr m c)) (wdArr m c)) shapeCasts_S8x4096x2048_S32768x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (Cert.KernelIdeal.ResultRun.run m ρ)

end Cert.KernelIdeal.KernelValue

end
-- ==== Proof.RefValue.lean ====
import proofs.«166344_j62380105007767_1_alg».proof.Proof.Gen.ReferenceIdeal.Run
import proofs.«166344_j62380105007767_1_alg».proof.Proof.Gen.ReferenceIdeal.Read
import proofs.«166344_j62380105007767_1_alg».proof.Proof.Spec

/-!
  The reference's result as the same whole-array functions.

  The reference multiplies the activations against ALL 8192 rows of each expert's up/gate weights at once and then
  cuts the product `[8, 4096, 8192]` along its last axis: columns `0 … 4095` are the linear branch, columns
  `4096 … 8191` the gate branch. A column of that product depends on one weight row only, so the two halves are the
  products against weight rows `h` and `4096 + h`: `Moe.hiddenAct` of the activations and the two row restrictions
  `wLo`, `wHi` of the one weight array. Its gate nonlinearity is spelled `g · (1 / (1 + exp (−g)))` with the literal
  `1.0`, which is the logistic function as the extended reals define it. The last product is `Moe.downProj`.
-/

noncomputable section

namespace Cert.ReferenceIdeal.RefValue

open Cert.ReferenceIdeal Cert.ReferenceIdeal.Gen Cert.ReferenceIdeal.Read Cert.Moe
open Idealize.ShloMosaic Idealize.ShloMosaic.ValueIdx
open scoped BigOperators

/-- Row `h` of the lower half of the 8192 weight rows, and of the upper half. -/
abbrev loRow (h : Fin 4096) : Fin 8192 := ⟨h.val, by omega⟩
abbrev hiRow (h : Fin 4096) : Fin 8192 := ⟨4096 + h.val, by omega⟩

/-- The linear weights inside the up/gate array: expert `e`, row `h`, column `k`. -/
def wLo (w : (⟨3, ![8, 8192, 2048]⟩ : Shape).Idx → EReal) : (⟨3, ![8, 4096, 2048]⟩ : Shape).Idx → EReal :=
  fun j => w (ix3 (j 0) (loRow (j 1)) (j 2))
/-- The gate weights inside the up/gate array: expert `e`, row `4096 + h`, column `k`. -/
def wHi (w : (⟨3, ![8, 8192, 2048]⟩ : Shape).Idx → EReal) : (⟨3, ![8, 4096, 2048]⟩ : Shape).Idx → EReal :=
  fun j => w (ix3 (j 0) (hiRow (j 1)) (j 2))

/-- The float literal `1.0` is the number one. -/
theorem one_f32 : Ideal.ofBits .f32 0x3F800000#32 = (1 : EReal) := by
  simp [Ideal.ofBits, Ideal.ieee, -EReal.coe_mul]; norm_num

/-- The lower half of the product's columns: the product against the linear weight rows. -/
theorem up_apply (x0 : (⟨S32768x2048, .f32⟩ : BufTy).Contents (Elt Ideal)) (x1 : (⟨S8x8192x2048, .f32⟩ : BufTy).Contents (Elt Ideal))
    (j : S8x4096x4096.Idx) :
    val_main_v2 (F := Ideal) x0 x1 j = ∑ k : Fin 2048, val_main_v0 (F := Ideal) x0 (ix3 (j 0) (j 1) k) * wLo x1 (ix3 (j 0) (j 2) k) := by
  rw [val_main_v2_apply, val_main_v1_apply]
  refine Finset.sum_congr rfl fun k _ => ?_
  have e1 : lidx_main_v1 (idx_main_v2 j) k = ix3 (j 0) (j 1) k :=
    funext fun a => Fin.ext (by match a with | ⟨0, _⟩ => rfl | ⟨1, _⟩ => rfl | ⟨2, _⟩ => rfl)
  have e2 : ridx_main_v1 (idx_main_v2 j) k = ix3 (j 0) (loRow (j 2)) k :=
    funext fun a => Fin.ext (by match a with | ⟨0, _⟩ => rfl | ⟨1, _⟩ => rfl | ⟨2, _⟩ => rfl)
  rw [e1, e2]
  rfl

/-- The upper half of the product's columns: the product against the gate weight rows. -/
theorem gate_apply (x0 : (⟨S32768x2048, .f32⟩ : BufTy).Contents (Elt Ideal)) (x1 : (⟨S8x8192x2048, .f32⟩ : BufTy).Contents (Elt Ideal))
    (j : S8x4096x4096.Idx) :
    val_main_v3 (F := Ideal) x0 x1 j = ∑ k : Fin 2048, val_main_v0 (F := Ideal) x0 (ix3 (j 0) (j 1) k) * wHi x1 (ix3 (j 0) (j 2) k) := by
  rw [val_main_v3_apply, val_main_v1_apply]
  refine Finset.sum_congr rfl fun k _ => ?_
  have e1 : lidx_main_v1 (idx_main_v3 j) k = ix3 (j 0) (j 1) k :=
    funext fun a => Fin.ext (by match a with | ⟨0, _⟩ => rfl | ⟨1, _⟩ => rfl | ⟨2, _⟩ => rfl)
  have e2 : ridx_main_v1 (idx_main_v3 j) k = ix3 (j 0) (hiRow (j 2)) k :=
    funext fun a => Fin.ext (by match a with | ⟨0, _⟩ => rfl | ⟨1, _⟩ => rfl | ⟨2, _⟩ => rfl)
  rw [e1, e2]
  rfl

/-- The reference's gated product is `Moe.hiddenAct` of the reshaped activations and the two weight halves. -/
theorem hidden_eq (x0 : (⟨S32768x2048, .f32⟩ : BufTy).Contents (Elt Ideal)) (x1 : (⟨S8x8192x2048, .f32⟩ : BufTy).Contents (Elt Ideal)) :
    val_main_v5 (F := Ideal) x0 x1 = hiddenAct (val_main_v0 (F := Ideal) x0) (wLo x1) (wHi x1) := by
  funext j
  rw [val_main_v5_apply, val_main_v4_apply, val_main_call0_v5_apply, val_main_call0_v4_apply, val_main_call0_cst_0_apply,
    val_main_call0_v3_apply, val_main_call0_v2_apply, val_main_call0_cst_apply, val_main_call0_v1_apply, val_main_call0_v0_apply,
    up_apply, gate_apply]
  simp only [Ideal.mulf_def, Ideal.hostDivf_def, Ideal.addf_def, Ideal.hostUnary_exp_def, Ideal.hostNegf_def, Ideal.negf_def,
    Ideal.ofBits_def, one_f32]
  rfl

/-- THE REFERENCE'S RESULT before its last reshape: the down projection of those hidden activations. -/
theorem out_eq (x0 : (⟨S32768x2048, .f32⟩ : BufTy).Contents (Elt Ideal)) (x1 : (⟨S8x8192x2048, .f32⟩ : BufTy).Contents (Elt Ideal))
    (x2 : (⟨S8x4096x2048, .f32⟩ : BufTy).Contents (Elt Ideal)) :
    val_main_v6 (F := Ideal) x0 x1 x2 = downProj (hiddenAct (val_main_v0 (F := Ideal) x0) (wLo x1) (wHi x1)) x2 := by
  funext i
  rw [val_main_v6_apply, hidden_eq]
  unfold downProj
  refine Finset.sum_congr rfl fun k _ => ?_
  have e1 : lidx_main_v6 i k = ix3 (i 0) (i 1) k :=
    funext fun a => Fin.ext (by match a with | ⟨0, _⟩ => rfl | ⟨1, _⟩ => rfl | ⟨2, _⟩ => rfl)
  have e2 : ridx_main_v6 i k = ix3 (i 0) k (i 2) :=
    funext fun a => Fin.ext (by match a with | ⟨0, _⟩ => rfl | ⟨1, _⟩ => rfl | ⟨2, _⟩ => rfl)
  rw [e1, e2]
  rfl

end Cert.ReferenceIdeal.RefValue

end
-- ==== Proof.Bridge.lean ====
import proofs.«166344_j62380105007767_1_alg».proof.Proof.KernelValue
import proofs.«166344_j62380105007767_1_alg».proof.Proof.RefValue

/-!
  The two results are one function of the arguments.

  The kernel program cuts the up/gate weights into their two halves BEFORE multiplying, the reference cuts the
  product AFTER: both read weight row `h` for the linear branch and row `4096 + h` for the gate branch, so the
  kernel's two prepared weight arrays are the row restrictions `wLo`, `wHi` the reference's value is stated with.
  Narrowing to the shorter float format changes nothing on the extended reals, so the kernel's prepared activations
  and down weights are the reference's reshaped activations and its down weights themselves. With the four arrays
  identified, both results are the reshape of `Moe.downProj (Moe.hiddenAct x wLo wHi) wd`: no sum is reordered and no
  law of the extended reals beyond the definition of the logistic function is used, so finiteness of the inputs is
  never needed.
-/

noncomputable section

namespace Cert.Proof.Bridge

open Cert.Moe Cert.KernelIdeal Cert.KernelIdeal.Gen Cert.KernelIdeal.KernelValue
open Idealize.ShloMosaic Idealize.ShloMosaic.TcCoe Idealize.ShloMosaic.ValueIdx Idealize.SL.Sem
open Cert.ReferenceIdeal.RefValue (wLo wHi loRow hiRow)

variable (m : (ℓ : Loc nD τ sig) → Buf (Elt Ideal) ℓ)

/-- The kernel's linear weights are weight rows `0 … 4095`. -/
theorem wu_eq (c : Dev nD) : wuArr m c = wLo (m ((c.tc : Thread nD τ).loc main_arg1)) := by
  funext j
  show extractStridedSlice S8x4096x2048 ![0, 0, 0] (m ((c.tc : Thread nD τ).loc main_arg1)) slices_S8x8192x2048_S8x4096x2048_0_0_0 j = _
  exact extractStridedSlice_apply ![0, 0, 0] _ slices_S8x8192x2048_S8x4096x2048_0_0_0 j (ix3 (j 0) (loRow (j 1)) (j 2)) (fun a => match a with
    | ⟨0, _⟩ => by show (j 0).val = 0 + (j 0).val; omega
    | ⟨1, _⟩ => by show (j 1).val = 0 + (j 1).val; omega
    | ⟨2, _⟩ => by show (j 2).val = 0 + (j 2).val; omega)

/-- The kernel's gate weights are weight rows `4096 … 8191`. -/
theorem wg_eq (c : Dev nD) : wgArr m c = wHi (m ((c.tc : Thread nD τ).loc main_arg1)) := by
  funext j
  show extractStridedSlice S8x4096x2048 ![0, 4096, 0] (m ((c.tc : Thread nD τ).loc main_arg1)) slices_S8x8192x2048_S8x4096x2048_0_4096_0 j = _
  exact extractStridedSlice_apply ![0, 4096, 0] _ slices_S8x8192x2048_S8x4096x2048_0_4096_0 j (ix3 (j 0) (hiRow (j 1)) (j 2)) (fun a => match a with
    | ⟨0, _⟩ => by show (j 0).val = 0 + (j 0).val; omega
    | ⟨1, _⟩ => by show 4096 + (j 1).val = 4096 + (j 1).val; omega
    | ⟨2, _⟩ => by show (j 2).val = 0 + (j 2).val; omega)

/-- THE BRIDGE: the reference's last stage at the kernel program's arguments is the kernel program's result. -/
theorem result_eq (c : Dev nD) :
    Cert.ReferenceIdeal.Read.val_main_v7 (F := Ideal) (m ((c.tc : Thread nD τ).loc main_arg0)) (m ((c.tc : Thread nD τ).loc main_arg1))
        (m ((c.tc : Thread nD τ).loc main_arg2))
      = shapeCast S32768x2048 (downProj (hiddenAct (xArr m c) (wuArr m c) (wgArr m c)) (wdArr m c)) shapeCasts_S8x4096x2048_S32768x2048 := by
  unfold Cert.ReferenceIdeal.Read.val_main_v7
  rw [Cert.ReferenceIdeal.RefValue.out_eq, wu_eq m c, wg_eq m c]
  rfl

end Cert.Proof.Bridge

end
-- ==== Proof.lean ====
/-
  A routed-experts layer: two pipelined TensorCore regions against one batched reference.

  THE CLAIM. Eight experts of 4096 tokens each; per expert the kernel program computes
  `down = (up · (gate · σ(gate))) · w_down` with `up = x · wuᵀ`, `gate = x · wgᵀ`, `σ` the logistic function, the
  linear and gate weights being the two halves of one `[8, 8192, 2048]` array. Its first region forms the gated
  hidden activations tile by tile on an `[8, 8, 4]` grid, its second region the down projection on another; each
  contracts over its whole inner axis in one step. The reference multiplies by all 8192 weight rows at once, cuts the
  product in two, applies `g · (1 / (1 + exp (−g)))` on the host and multiplies by the down weights.

  WHY IT HOLDS on the extended reals. A column of the up/gate product depends on one weight row, so cutting the
  weights before the product or the product after it reads the same rows; the host's expansion of the gate
  nonlinearity is the logistic function by definition; a change of float format is the identity; and both programs
  sum over each contracted axis whole. The two results are therefore the same term, entry by entry, with no sum
  reordered: the precondition is never opened.

  THE PARTS. Each region's output array is read off its frame run as one whole-array function (what a grid point
  writes back is its tile of that function, and the tiles cover the array); the host lines around the regions are read
  back one at a time; the reference's run is read stage by stage. The frames of the two kernel programs are the
  launch over the segments of @main; the reference's frame is its run with the result dropped. The idealization
  rewrote nothing, so its conjunct is trivial.
-/
import proofs.«166344_j62380105007767_1_alg».proof.Defs
import proofs.«166344_j62380105007767_1_alg».proof.Proof.Gen.Kernel
import proofs.«166344_j62380105007767_1_alg».proof.Proof.Gen.Kernel.Frame
import proofs.«166344_j62380105007767_1_alg».proof.Proof.Gen.KernelIdeal
import proofs.«166344_j62380105007767_1_alg».proof.Proof.Gen.KernelIdeal.Frame
import proofs.«166344_j62380105007767_1_alg».proof.Proof.Gen.ReferenceIdeal
import proofs.«166344_j62380105007767_1_alg».proof.Proof.Gen.ReferenceIdeal.Run
import proofs.«166344_j62380105007767_1_alg».proof.Proof.Gen.ReferenceIdeal.Read
import proofs.«166344_j62380105007767_1_alg».proof.Proof.Gen.Pre_finite_inputs
import proofs.«166344_j62380105007767_1_alg».proof.Proof.KernelValue
import proofs.«166344_j62380105007767_1_alg».proof.Proof.RefValue
import proofs.«166344_j62380105007767_1_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reshape of the down projection of the gated hidden activations of the same four
    arrays: the kernel program's run read region by region, the reference's read stage by stage, and the bridge. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1]
  exact Cert.Proof.Bridge.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
